-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S1x64 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩
abbrev S10000x64 : Shape := ⟨2, ![10000, 64]⟩
abbrev S10000x1 : Shape := ⟨2, ![10000, 1]⟩

abbrev nBuf : Space → Nat
  | .hbm => 38
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S64x64, .f32⟩
  | .hbm, ⟨32, _⟩ => ⟨S64x64, .f32⟩
  | .hbm, ⟨33, _⟩ => ⟨S64x1, .f32⟩
  | .hbm, ⟨34, _⟩ => ⟨S1x64, .f32⟩
  | .hbm, ⟨35, _⟩ => ⟨S1x1, .f32⟩
  | .hbm, ⟨36, _⟩ => ⟨S100000x1, .f32⟩
  | .hbm, ⟨37, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S64x1, .f32⟩
  | .local _ .vmem, ⟨10, _⟩ => ⟨S1x1, .f32⟩
  | .local _ .vmem, ⟨11, _⟩ => ⟨S10000x1, .f32⟩
  | .local _ .vmem, ⟨12, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  transposes_S1x64_S64x1_1_0 : S1x64.Transposes [1, 0] S64x1
  shapeCasts_S64_S1x64 : S64.ShapeCasts S1x64
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x1.size a ≤ S100000x1.size a
  hwx0_8 : ∀ i : grid0.Coords, EltTy.bits .f32 = 32 ∨ (Rect.block (s := S100000x1) S10000x1.size (cc0_transform_8 i) (hinb0_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S10000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S64x1, .f32⟩
  | .hbm, ⟨48, _⟩ => ⟨S100000x1, .f32⟩
  | .hbm, ⟨49, _⟩ => ⟨S1x1, .f32⟩
  | .hbm, ⟨50, _⟩ => ⟨S100000x1, .f32⟩
  | .hbm, ⟨51, _⟩ => ⟨S100000x1, .f32⟩
  | .hbm, ⟨52, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.HeadSpec.lean ====
/-
  What the network computes for one node, as a function of arrays read index by index.

  A node r with aggregated neighbour features msg(r, ·), in-degree deg(r) and own features x(r, ·) gets
    a(k)   = msg(r, k) / max(deg(r), 1)                                    (the neighbour mean, 0 for an isolated node)
    h(j)   = max((Σ_k a(k) · wl(k, j) + bl(j)) + Σ_k x(r, k) · wr(k, j), 0)   (two linear maps, a bias, the rectifier)
    out(r) = Σ_j h(j) · wh(j, 0) + bh(0)                                    (the regression head)
  with the weight matrices in the orientation the products contract them in (input feature first).
  `score` is this over the whole node set; `blockRow` is the same value for a row of a block of nodes whose degrees
  come as a column and whose biases come as rows, which is how a tile of the computation meets them.
-/
import Idealize.ShloMosaic.PureOps.Ideal.Laws
import Idealize.ShloMosaic.Lib.ValueIdx

noncomputable section

open scoped BigOperators

namespace Cert.SageHead
open Idealize.ShloMosaic Idealize.ShloMosaic.ValueIdx

/-- The hidden activation j of a node, from its aggregated row `a`, its degree `d`, its own row `xr`, and the weights. -/
def hiddenOf (a xr : Fin 64 → EReal) (d : EReal) (wl wr : FVec Ideal ⟨2, ![64, 64]⟩ .f32) (b : EReal) (j : Fin 64) : EReal :=
  max (((∑ k : Fin 64, Ideal.div (a k) (max d (Ideal.ofBits .f32 0x3F800000#32)) * wl (ix2 k j)) + b)
        + ∑ k : Fin 64, xr k * wr (ix2 k j)) (Ideal.ofBits .f32 0x00000000#32)

/-- The output for every node: the head applied to the hidden activations. -/
def score (msg : FVec Ideal ⟨2, ![100000, 64]⟩ .f32) (deg : FVec Ideal ⟨1, ![100000]⟩ .f32)
    (x : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (wh : FVec Ideal ⟨2, ![64, 1]⟩ .f32) (bh : FVec Ideal ⟨1, ![1]⟩ .f32) :
    FVec Ideal ⟨1, ![100000]⟩ .f32 := fun i =>
  (∑ j : Fin 64, hiddenOf (fun k => msg (ix2 (i 0) k)) (fun k => x (ix2 (i 0) k)) (deg (ix1 (i 0))) wl wr (bl (ix1 j)) j
      * wh (ix2 j 0)) + bh (ix1 0)

/-- The output for row p of a block of R nodes, the degrees a column and the biases rows. -/
def blockRow {R : Nat} (msg : FVec Ideal ⟨2, ![R, 64]⟩ .f32) (deg : FVec Ideal ⟨2, ![R, 1]⟩ .f32)
    (x : FVec Ideal ⟨2, ![R, 64]⟩ .f32) (wl : FVec Ideal ⟨2, ![64, 64]⟩ .f32) (bl : FVec Ideal ⟨2, ![1, 64]⟩ .f32)
    (wr : FVec Ideal ⟨2, ![64, 64]⟩ .f32) (wh : FVec Ideal ⟨2, ![64, 1]⟩ .f32) (bh : FVec Ideal ⟨2, ![1, 1]⟩ .f32)
    (p : Fin R) : EReal :=
  (∑ j : Fin 64, hiddenOf (fun k => msg (ix2 p k)) (fun k => x (ix2 p k)) (deg (ix2 p 0)) wl wr (bl (ix2 0 j)) j
      * wh (ix2 j 0)) + bh (ix2 0 0)

/-- A block's row is the node's score when the block's entries are the arrays' entries at that node. -/
theorem blockRow_eq_score {R : Nat} (bmsg : FVec Ideal ⟨2, ![R, 64]⟩ .f32) (bdeg : FVec Ideal ⟨2, ![R, 1]⟩ .f32)
    (bx : FVec Ideal ⟨2, ![R, 64]⟩ .f32) (wl : FVec Ideal ⟨2, ![64, 64]⟩ .f32) (bl2 : FVec Ideal ⟨2, ![1, 64]⟩ .f32)
    (wr : FVec Ideal ⟨2, ![64, 64]⟩ .f32) (wh : FVec Ideal ⟨2, ![64, 1]⟩ .f32) (bh2 : FVec Ideal ⟨2, ![1, 1]⟩ .f32)
    (msg : FVec Ideal ⟨2, ![100000, 64]⟩ .f32) (deg : FVec Ideal ⟨1, ![100000]⟩ .f32)
    (x : FVec Ideal ⟨2, ![100000, 64]⟩ .f32) (bl : FVec Ideal ⟨1, ![64]⟩ .f32) (bh : FVec Ideal ⟨1, ![1]⟩ .f32)
    (p : Fin R) (r : Fin 100000)
    (hmsg : ∀ k, bmsg (ix2 p k) = msg (ix2 r k)) (hdeg : bdeg (ix2 p 0) = deg (ix1 r))
    (hx : ∀ k, bx (ix2 p k) = x (ix2 r k)) (hbl : ∀ j, bl2 (ix2 0 j) = bl (ix1 j)) (hbh : bh2 (ix2 0 0) = bh (ix1 0)) :
    blockRow bmsg bdeg bx wl bl2 wr wh bh2 p = score msg deg x wl bl wr wh bh (ix1 r) := by
  unfold blockRow score
  simp only [hmsg, hdeg, hx, hbl, hbh]

end Cert.SageHead

end
-- ==== Proof.KernelPayload.lean ====
/-
  One tile of the kernel, read at an index.

  A tile holds R = 10000 nodes: their aggregated rows, their degrees as a column, their own rows, and the whole weight
  matrices and biases (as rows). Its one store writes, at row p, exactly the node's output: the quotient by
  max(deg, 1) is taken entry by entry against the degree column broadcast along the features; a change of float format
  is the identity on extended reals; each matrix product into the zero accumulator is the plain sum over the 64
  contracted coordinates; the biases are rows broadcast over the tile.
-/
import proofs.«175616_j46883863003259_1_alg».proof.Proof.Gen.KernelIdeal.Skeleton
import proofs.«175616_j46883863003259_1_alg».proof.Proof.LibPlainDot
import proofs.«175616_j46883863003259_1_alg».proof.Proof.HeadSpec
import Idealize.ShloMosaic.Lib.ValueLayout
import Idealize.ShloMosaic.Lib.Pipeline.Value
import Idealize.ShloMosaic.Lib.ValueIdx

noncomputable section

open scoped BigOperators

namespace Cert.KernelIdeal.HeadValue
open Cert.KernelIdeal Cert.KernelIdeal.Gen Idealize.ShloMosaic Idealize.ShloMosaic.ValueIdx

/-- The tile's two 64-wide products contract the left operand's columns with the right operand's rows. -/
theorem plain64 : PlainDot.IsPlain dot_S10000x64_S64x64_S10000x64_1_0_0_1_n_n := ⟨rfl, rfl, rfl, rfl, rfl, rfl⟩
/-- So does the head's product with the 64 × 1 weight column. -/
theorem plain1 : PlainDot.IsPlain dot_S10000x64_S64x1_S10000x1_1_0_0_1_n_n := ⟨rfl, rfl, rfl, rfl, rfl, rfl⟩

/-- A column broadcast along the rows: an [a, 1] array broadcast to [a, b] reads, at (p, k), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- What the tile stores at row p (its one column): the output of the node in that row, as `blockRow` spells it over the
    tile's eight inputs. -/
theorem pay_apply (x1 : Vec Ideal S10000x1 .f32) (x0 x2 : Vec Ideal S10000x64 .f32) (x3 x5 : Vec Ideal S64x64 .f32)
    (x4 : Vec Ideal S1x64 .f32) (x6 : Vec Ideal S64x1 .f32) (x7 : Vec Ideal S1x1 .f32) (p : Fin 10000) (q : Fin 1) :
    k0_pay1 (F := Ideal) x1 x0 x2 x3 x5 x4 x6 x7 (ix2 p q) = Cert.SageHead.blockRow x0 x1 x2 x3 x4 x5 x6 x7 p := by
  obtain rfl : q = 0 := Subsingleton.elim _ _
  unfold k0_pay1 Cert.SageHead.blockRow
  simp only [shapeCast_self, matmul]
  rw [addf_apply, PlainDot.matmul_zero_plain _ plain1, broadcastTo_1b_ab_apply]
  congr 1
  refine Finset.sum_congr rfl fun j _ => ?_
  rw [truncf_apply, truncf_apply, maximumf_apply, addf_apply, addf_apply, PlainDot.matmul_zero_plain _ plain64,
    PlainDot.matmul_zero_plain _ plain64, broadcastTo_1b_ab_apply, broadcast_apply]
  unfold Cert.SageHead.hiddenOf
  simp only [truncf_apply, divf_apply, broadcastTo_a1_ab_apply, maximumf_apply, broadcast_apply, Ideal.ofBits_def]

end Cert.KernelIdeal.HeadValue

end
-- ==== Proof.KernelHost.lean ====
/-
  The arrays the tiles read, as the launch finds them.

  Before the launch the program aggregates: it gathers the source rows of the edges and adds them into the destination
  rows (the message sums), adds a one per edge into the destination's counter (the degrees, then laid out as a column),
  transposes the three weight matrices, and lays the two biases out as rows. The aggregation and the transposes are the
  very operations the reference program performs on the same arguments, so they are named by the reference's own stages
  and never opened: whatever a gather or a scatter-add does with the edge list, it does the same on both sides.
-/
import proofs.«175616_j46883863003259_1_alg».proof.Defs
import proofs.«175616_j46883863003259_1_alg».proof.Proof.Gen.KernelIdeal.Frame
import proofs.«175616_j46883863003259_1_alg».proof.Proof.Gen.ReferenceIdeal.Read
import proofs.«175616_j46883863003259_1_alg».proof.Proof.KernelPayload
import Idealize.ShloMosaic.Lib.Pipeline.Value
import Idealize.ShloMosaic.Lib.StableHlo.Run
import Idealize.ShloMosaic.Lib.Tactic

noncomputable section
open scoped BigOperators

open Idealize.ShloMosaic Idealize.ShloMosaic.TcCoe Idealize.SL.Sem
open Idealize.ShloMosaic.Pipeline (Dat)

namespace Cert.KernelIdeal.HeadValue
open Cert.KernelIdeal Cert.KernelIdeal.Gen Idealize.ShloMosaic.ValueIdx

variable (m : (ℓ : Loc nD τ sig) → Buf (Elt Ideal) ℓ) (ρ : Dev nD → PrngReg)

/-- The seven arguments on a device: node features, edge list, the two weight matrices with the bias between them, the head's
    weight row and bias. -/
abbrev a0 (c : Dev nD) : S100000x64.Idx → EReal := m ((c : Thread nD τ).loc main_arg0)
abbrev a1 (c : Dev nD) : S2x1600000.Idx → BitVec 32 := m ((c : Thread nD τ).loc main_arg1)
abbrev a2 (c : Dev nD) : S64x64.Idx → EReal := m ((c : Thread nD τ).loc main_arg2)
abbrev a3 (c : Dev nD) : S64.Idx → EReal := m ((c : Thread nD τ).loc main_arg3)
abbrev a4 (c : Dev nD) : S64x64.Idx → EReal := m ((c : Thread nD τ).loc main_arg4)
abbrev a5 (c : Dev nD) : S1x64.Idx → EReal := m ((c : Thread nD τ).loc main_arg5)
abbrev a6 (c : Dev nD) : S1.Idx → EReal := m ((c : Thread nD τ).loc main_arg6)

/-- The message sums the launch finds are the reference's scatter-added gather of the same features and edges. -/
theorem V13_eq (c : Dev nD) : (V m c main_v13 : S100000x64.Idx → EReal) = Cert.ReferenceIdeal.Read.val_main_v13 (F := Ideal) (a0 m c) (a1 m c) := by
  show StableHlo.after hostOps0 (fun b => m (c, b)) (Proc.devRef .tc main_v13) = _
  after_results
  rfl

/-- The degree column is the reference's degree vector, laid out as a column. -/
theorem V18_eq (c : Dev nD) : (V m c main_v18 : S100000x1.Idx → EReal) = shapeCast S100000x1 (Cert.ReferenceIdeal.Read.val_main_v17 (F := Ideal) (a1 m c)) Facts₀.shapeCasts_S100000_S100000x1 := by
  show StableHlo.after hostOps0 (fun b => m (c, b)) (Proc.devRef .tc main_v18) = _
  after_results
  rfl

/-- The first weight matrix, transposed: the reference's own transpose. -/
theorem V19_eq (c : Dev nD) : (V m c main_v19 : S64x64.Idx → EReal) = Cert.ReferenceIdeal.Read.val_main_v23 (F := Ideal) (a2 m c) := by
  show StableHlo.after hostOps0 (fun b => m (c, b)) (Proc.devRef .tc main_v19) = _
  after_results
  rfl

/-- The second weight matrix, transposed. -/
theorem V20_eq (c : Dev nD) : (V m c main_v20 : S64x64.Idx → EReal) = Cert.ReferenceIdeal.Read.val_main_v28 (F := Ideal) (a4 m c) := by
  show StableHlo.after hostOps0 (fun b => m (c, b)) (Proc.devRef .tc main_v20) = _
  after_results
  rfl

/-- The head's weight row, transposed to a column. -/
theorem V21_eq (c : Dev nD) : (V m c main_v21 : S64x1.Idx → EReal) = Cert.ReferenceIdeal.Read.val_main_v32 (F := Ideal) (a5 m c) := by
  show StableHlo.after hostOps0 (fun b => m (c, b)) (Proc.devRef .tc main_v21) = _
  after_results
  rfl

/-- The hidden layer's bias as a row. -/
theorem V22_eq (c : Dev nD) : (V m c main_v22 : S1x64.Idx → EReal) = shapeCast S1x64 (a3 m c) Facts₀.shapeCasts_S64_S1x64 := by
  show StableHlo.after hostOps0 (fun b => m (c, b)) (Proc.devRef .tc main_v22) = _
  after_results
  rfl

/-- The head's bias as a 1 × 1 array. -/
theorem V23_eq (c : Dev nD) : (V m c main_v23 : S1x1.Idx → EReal) = shapeCast S1x1 (a6 m c) Facts₀.shapeCasts_S1_S1x1 := by
  show StableHlo.after hostOps0 (fun b => m (c, b)) (Proc.devRef .tc main_v23) = _
  after_results
  rfl

end Cert.KernelIdeal.HeadValue
end
-- ==== Proof.KernelBlocks.lean ====
/-
  The tiles' inputs, block by block.

  The launch walks ten points t = 0 … 9. At point t the first three windows hold rows 10000 t … 10000 t + 9999 of the
  message sums, the degree column and the node features; the other five hold whole arrays (the transposed weights and
  the bias rows) at every point. Every block coordinate is index × size + the coordinate inside the block, and the
  indices are decided once over the ten points.
-/
import proofs.«175616_j46883863003259_1_alg».proof.Proof.KernelHost

noncomputable section
open scoped BigOperators

open Idealize.ShloMosaic Idealize.ShloMosaic.TcCoe Idealize.SL.Sem
open Idealize.ShloMosaic.Pipeline (Dat)

namespace Cert.KernelIdeal.HeadValue
open Cert.KernelIdeal Cert.KernelIdeal.Gen Idealize.ShloMosaic.ValueIdx

variable (m : (ℓ : Loc nD τ sig) → Buf (Elt Ideal) ℓ) (ρ : Dev nD → PrngReg)

/-- Every access of the tile starts at the origin of its buffer. -/
theorem hz : (![0, 0] : Fin 2 → Nat) = fun _ => 0 := funext fun a => by fin_cases a <;> rfl

/-- The nine windows' block indices at each of the ten points: the three streamed inputs and the output move one block per
    point along the rows; the five resident inputs stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A vector laid out as a column reads, at (r, u), the vector's entry r. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column laid out as a vector reads, at r, the column's entry (r, 0). -/
theorem shapeCast_a1_a_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- Reading a block of an array through its window: for the streamed windows row p of block t is row 10000 t + p of the
    array; for the resident windows the block is the array. Stated for any contents of the array. -/
theorem read0 (c : Dev nD) (t : Fin cfg0.N) (A : Buf (Elt Ideal) ((c : Thread nD τ).loc main_v13)) (p : Fin 10000) (k : Fin 64)
    (r : Fin 100000) (hr : r.val = 10000 * t.val + p.val) :
    ((cfg0.win 0).blk t).view.read (Elt Ideal) A (ix2 p k) = (A : S100000x64.Idx → EReal) (ix2 r k) := by
  obtain ⟨e0, e1, -⟩ := idx_facts t
  rw [View.read_apply]
  refine congrArg A (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

theorem read1 (c : Dev nD) (t : Fin cfg0.N) (A : Buf (Elt Ideal) ((c : Thread nD τ).loc main_v18)) (p : Fin 10000)
    (r : Fin 100000) (hr : r.val = 10000 * t.val + p.val) :
    ((cfg0.win 1).blk t).view.read (Elt Ideal) A (ix2 p (0 : Fin 1)) = (A : S100000x1.Idx → EReal) (ix2 r (0 : Fin 1)) := by
  obtain ⟨-, -, e0, e1, -⟩ := idx_facts t
  rw [View.read_apply]
  refine congrArg A (funext fun a => Fin.ext ?_)
  match a with
  | ⟨0, _⟩ => show win0_1.index t (0 : Fin 2) * 10000 + 1 * p.val = r.val; rw [e0, hr]; omega
  | ⟨1, _⟩ => show win0_1.index t (1 : Fin 2) * 1 + 1 * 0 = 0; rw [e1]

theorem read2 (c : Dev nD) (t : Fin cfg0.N) (A : Buf (Elt Ideal) ((c : Thread nD τ).loc main_arg0)) (p : Fin 10000) (k : Fin 64)
    (r : Fin 100000) (hr : r.val = 10000 * t.val + p.val) :
    ((cfg0.win 2).blk t).view.read (Elt Ideal) A (ix2 p k) = (A : S100000x64.Idx → EReal) (ix2 r k) := by
  obtain ⟨-, -, -, -, e0, e1, -⟩ := idx_facts t
  rw [View.read_apply]
  refine congrArg A (funext fun a => Fin.ext ?_)
  match a with
  | ⟨0, _⟩ => show win0_2.index t (0 : Fin 2) * 10000 + 1 * p.val = r.val; rw [e0, hr]; omega
  | ⟨1, _⟩ => show win0_2.index t (1 : Fin 2) * 64 + 1 * k.val = k.val; rw [e1]; omega

theorem read3 (c : Dev nD) (t : Fin cfg0.N) (A : Buf (Elt Ideal) ((c : Thread nD τ).loc main_v19)) :
    ((cfg0.win 3).blk t).view.read (Elt Ideal) A = (A : S64x64.Idx → EReal) := by
  obtain ⟨-, -, -, -, -, -, e0, e1, -⟩ := idx_facts t
  funext y
  rw [View.read_apply]
  refine congrArg A (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem read4 (c : Dev nD) (t : Fin cfg0.N) (A : Buf (Elt Ideal) ((c : Thread nD τ).loc main_v22)) :
    ((cfg0.win 4).blk t).view.read (Elt Ideal) A = (A : S1x64.Idx → EReal) := by
  obtain ⟨-, -, -, -, -, -, -, -, e0, e1, -⟩ := idx_facts t
  funext y
  rw [View.read_apply]
  refine congrArg A (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem read5 (c : Dev nD) (t : Fin cfg0.N) (A : Buf (Elt Ideal) ((c : Thread nD τ).loc main_v20)) :
    ((cfg0.win 5).blk t).view.read (Elt Ideal) A = (A : S64x64.Idx → EReal) := by
  obtain ⟨-, -, -, -, -, -, -, -, -, -, e0, e1, -⟩ := idx_facts t
  funext y
  rw [View.read_apply]
  refine congrArg A (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

theorem read6 (c : Dev nD) (t : Fin cfg0.N) (A : Buf (Elt Ideal) ((c : Thread nD τ).loc main_v21)) :
    ((cfg0.win 6).blk t).view.read (Elt Ideal) A = (A : S64x1.Idx → EReal) := by
  obtain ⟨-, -, -, -, -, -, -, -, -, -, -, -, e0, e1, -⟩ := idx_facts t
  funext y
  rw [View.read_apply]
  refine congrArg A (funext fun a => Fin.ext ?_)
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega

theorem read7 (c : Dev nD) (t : Fin cfg0.N) (A : Buf (Elt Ideal) ((c : Thread nD τ).loc main_v23)) :
    ((cfg0.win 7).blk t).view.read (Elt Ideal) A = (A : S1x1.Idx → EReal) := by
  obtain ⟨-, -, -, -, -, -, -, -, -, -, -, -, -, -, e0, e1, -⟩ := idx_facts t
  funext y
  rw [View.read_apply]
  refine congrArg A (funext fun a => Fin.ext ?_)
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

/-- Row p of the message block at point t is the message row of node 10000 t + p. -/
theorem iblk0_apply (c : Dev nD) (t : Fin cfg0.N) (p : Fin 10000) (k : Fin 64) (r : Fin 100000)
    (hr : r.val = 10000 * t.val + p.val) :
    (iblk m c 0 t : Vec Ideal S10000x64 .f32) (ix2 p k)
      = Cert.ReferenceIdeal.Read.val_main_v13 (F := Ideal) (a0 m c) (a1 m c) (ix2 r k) :=
  (read0 c t (V m c main_v13) p k r hr).trans (congrFun (V13_eq m c) (ix2 r k))

/-- Row p of the degree block at point t is the degree of node 10000 t + p. -/
theorem iblk1_apply (c : Dev nD) (t : Fin cfg0.N) (p : Fin 10000) (r : Fin 100000)
    (hr : r.val = 10000 * t.val + p.val) :
    (iblk m c 1 t : Vec Ideal S10000x1 .f32) (ix2 p (0 : Fin 1))
      = Cert.ReferenceIdeal.Read.val_main_v17 (F := Ideal) (a1 m c) (ix1 r) :=
  ((read1 c t (V m c main_v18) p r hr).trans (congrFun (V18_eq m c) (ix2 r (0 : Fin 1)))).trans
    (shapeCast_a_a1_apply _ _ r 0)

/-- Row p of the feature block at point t is the feature row of node 10000 t + p. -/
theorem iblk2_apply (c : Dev nD) (t : Fin cfg0.N) (p : Fin 10000) (k : Fin 64) (r : Fin 100000)
    (hr : r.val = 10000 * t.val + p.val) :
    (iblk m c 2 t : Vec Ideal S10000x64 .f32) (ix2 p k) = a0 m c (ix2 r k) :=
  (read2 c t (V m c main_arg0) p k r hr).trans (congrFun (V_main_arg0 m c) (ix2 r k))

/-- The other five blocks are whole arrays at every point: the transposed weights, -/
theorem iblk3_eq (c : Dev nD) (t : Fin cfg0.N) :
    (iblk m c 3 t : Vec Ideal S64x64 .f32) = Cert.ReferenceIdeal.Read.val_main_v23 (F := Ideal) (a2 m c) :=
  (read3 c t (V m c main_v19)).trans (V19_eq m c)
theorem iblk5_eq (c : Dev nD) (t : Fin cfg0.N) :
    (iblk m c 5 t : Vec Ideal S64x64 .f32) = Cert.ReferenceIdeal.Read.val_main_v28 (F := Ideal) (a4 m c) :=
  (read5 c t (V m c main_v20)).trans (V20_eq m c)
theorem iblk6_eq (c : Dev nD) (t : Fin cfg0.N) :
    (iblk m c 6 t : Vec Ideal S64x1 .f32) = Cert.ReferenceIdeal.Read.val_main_v32 (F := Ideal) (a5 m c) :=
  (read6 c t (V m c main_v21)).trans (V21_eq m c)

/-- and the two biases, entry by entry. -/
theorem iblk4_apply (c : Dev nD) (t : Fin cfg0.N) (j : Fin 64) :
    (iblk m c 4 t : Vec Ideal S1x64 .f32) (ix2 (0 : Fin 1) j) = a3 m c (ix1 j) :=
  ((congrFun (read4 c t (V m c main_v22)) (ix2 (0 : Fin 1) j)).trans (congrFun (V22_eq m c) (ix2 (0 : Fin 1) j))).trans
    (shapeCast_a_1a_apply _ _ 0 j)
theorem iblk7_apply (c : Dev nD) (t : Fin cfg0.N) :
    (iblk m c 7 t : Vec Ideal S1x1 .f32) (ix2 (0 : Fin 1) (0 : Fin 1)) = a6 m c (ix1 (0 : Fin 1)) :=
  ((congrFun (read7 c t (V m c main_v23)) (ix2 (0 : Fin 1) (0 : Fin 1))).trans (congrFun (V23_eq m c) (ix2 (0 : Fin 1) (0 : Fin 1)))).trans
    (shapeCast_a_1a_apply _ _ 0 0)

/-- A tile's row is the node's score once its entries are the arrays' entries at that node and its weight blocks are
    the weight arrays. -/
theorem block_score {R : Nat} (bmsg : FVec Ideal ⟨2, ![R, 64]⟩ .f32) (bdeg : FVec Ideal ⟨2, ![R, 1]⟩ .f32)
    (bx : FVec Ideal ⟨2, ![R, 64]⟩ .f32) (bwl : FVec Ideal ⟨2, ![64, 64]⟩ .f32) (bl2 : FVec Ideal ⟨2, ![1, 64]⟩ .f32)
    (bwr : FVec Ideal ⟨2, ![64, 64]⟩ .f32) (bwh : FVec Ideal ⟨2, ![64, 1]⟩ .f32) (bh2 : FVec Ideal ⟨2, ![1, 1]⟩ .f32)
    (msg : FVec Ideal ⟨2, ![100000, 64]⟩ .f32) (deg : FVec Ideal ⟨1, ![100000]⟩ .f32)
    (x : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (wh : FVec Ideal ⟨2, ![64, 1]⟩ .f32) (bh : FVec Ideal ⟨1, ![1]⟩ .f32)
    (p : Fin R) (r : Fin 100000)
    (hmsg : ∀ k, bmsg (ix2 p k) = msg (ix2 r k)) (hdeg : bdeg (ix2 p 0) = deg (ix1 r))
    (hx : ∀ k, bx (ix2 p k) = x (ix2 r k)) (hwl : bwl = wl) (hbl : ∀ j, bl2 (ix2 0 j) = bl (ix1 j)) (hwr : bwr = wr)
    (hwh : bwh = wh) (hbh : bh2 (ix2 0 0) = bh (ix1 0)) :
    Cert.SageHead.blockRow bmsg bdeg bx bwl bl2 bwr bwh bh2 p = Cert.SageHead.score msg deg x wl bl wr wh bh (ix1 r) := by
  subst hwl hwr hwh
  exact Cert.SageHead.blockRow_eq_score bmsg bdeg bx bwl bl2 bwr bwh bh2 msg deg x bl bh p r hmsg hdeg hx hbl hbh

end Cert.KernelIdeal.HeadValue
end
-- ==== Proof.KernelValue.lean ====
/-
  The kernel's result array.

  Point t of the launch writes back one block of the output column. Its entry in row p is the tile's store at row p,
  which is the score of node 10000 t + p: the tile's message, degree and feature blocks hold that node's entries at
  row p, and its other five blocks are the whole transposed weights and bias rows. Read through the output window the
  same entry of the score column sits at row 10000 t + p, so each write-back is a block of ONE whole-array function.
  Row i of the column lies in the block of point i / 10000, so the ten blocks cover the column and the array ends
  holding every node's score; the program's last operation lays the column out as a vector.
-/
import proofs.«175616_j46883863003259_1_alg».proof.Proof.KernelBlocks

noncomputable section
open scoped BigOperators

open Idealize.ShloMosaic Idealize.ShloMosaic.TcCoe Idealize.SL.Sem
open Idealize.ShloMosaic.Pipeline (Dat)

namespace Cert.KernelIdeal.HeadValue
open Cert.KernelIdeal Cert.KernelIdeal.Gen Idealize.ShloMosaic.ValueIdx

variable (m : (ℓ : Loc nD τ sig) → Buf (Elt Ideal) ℓ) (ρ : Dev nD → PrngReg)
/-- The program's result: every node's score, from the arguments through the reference's aggregation stages. -/
abbrev result (c : Dev nD) : Buf (Elt Ideal) ((c : Thread nD τ).loc main_v25) :=
  Cert.SageHead.score (Cert.ReferenceIdeal.Read.val_main_v13 (F := Ideal) (a0 m c) (a1 m c))
    (Cert.ReferenceIdeal.Read.val_main_v17 (F := Ideal) (a1 m c)) (a0 m c)
    (Cert.ReferenceIdeal.Read.val_main_v23 (F := Ideal) (a2 m c)) (a3 m c)
    (Cert.ReferenceIdeal.Read.val_main_v28 (F := Ideal) (a4 m c))
    (Cert.ReferenceIdeal.Read.val_main_v32 (F := Ideal) (a5 m c)) (a6 m c)

/-- The same as the one-column array the launch writes. -/
abbrev outCol (c : Dev nD) : Buf (Elt Ideal) ((c : Thread nD τ).loc main_v24) := fun i => result m c (ix1 (i 0))

/-- The tile's store at any index of its one-column block: the score of the node in that index's row. -/
theorem pay_at (x1 : Vec Ideal S10000x1 .f32) (x0 x2 : Vec Ideal S10000x64 .f32) (x3 x5 : Vec Ideal S64x64 .f32)
    (x4 : Vec Ideal S1x64 .f32) (x6 : Vec Ideal S64x1 .f32) (x7 : Vec Ideal S1x1 .f32) (y : S10000x1.Idx) :
    k0_pay1 (F := Ideal) x1 x0 x2 x3 x5 x4 x6 x7 y = Cert.SageHead.blockRow x0 x1 x2 x3 x4 x5 x6 x7 (y 0) :=
  (congrArg (k0_pay1 (F := Ideal) x1 x0 x2 x3 x5 x4 x6 x7) (eq_ix2 y)).trans (pay_apply x1 x0 x2 x3 x5 x4 x6 x7 (y 0) (y 1))

/-- Reading the output column through its window: entry y of block t is the column's entry in row 10000 t + (row of y). -/
theorem read8 (c : Dev nD) (t : Fin cfg0.N) (A : Buf (Elt Ideal) ((c : Thread nD τ).loc main_v24)) (y : S10000x1.Idx)
    (r : Fin 100000) (hr : r.val = 10000 * t.val + (y 0).val) :
    ((cfg0.win 8).blk t).view.read (Elt Ideal) A y = (A : S100000x1.Idx → EReal) (ix2 r (0 : Fin 1)) := by
  obtain ⟨-, -, -, -, -, -, -, -, -, -, -, -, -, -, -, -, e0, e1⟩ := idx_facts t
  have hy1 : (y 1).val = 0 := by have h1 : (y 1).val < 1 := (y 1).isLt; omega
  rw [View.read_apply]
  refine congrArg A (funext fun a => Fin.ext ?_)
  match a with
  | ⟨0, _⟩ => show win0_8.index t (0 : Fin 2) * 10000 + 1 * (y 0).val = r.val; rw [e0, hr]; omega
  | ⟨1, _⟩ => show win0_8.index t (1 : Fin 2) * 1 + 1 * (y 1).val = 0; rw [e1, hy1]

/-- WHAT POINT t WRITES BACK is rows 10000 t … 10000 t + 9999 of the score column: row p of the tile is node 10000 t + p,
    whose messages, degree and features the tile's first three blocks hold at row p; the other five blocks are the
    whole weight and bias arrays. -/
theorem flushed_eq (c : Dev nD) (t : Fin cfg0.N) :
    (dats m 0 c).flushed 8 t = ((cfg0.win 8).blk t).view.read (Elt Ideal) (outCol m c) := by
  have hN : cfg0.N = 10 := N_0
  show (cfg0.win 8).cut (grid0.coords t) ((dats m 0 c).after 8 t) = _
  rw [after0_8]
  unfold out0_8
  rw [View.canon_unit_zero hz]
  simp only [View.ld_unit_zero (S := S10000x1) hz, View.ld_unit_zero (S := S10000x64) hz, View.ld_unit_zero (S := S64x64) hz,
    View.ld_unit_zero (S := S1x64) hz, View.ld_unit_zero (S := S64x1) hz, View.ld_unit_zero (S := S1x1) hz]
  funext y
  have hp : (y 0).val < 10000 := (y 0).isLt
  have ht : t.val < 10 := hN ▸ t.isLt
  obtain ⟨r, hr⟩ : ∃ r : Fin 100000, r.val = 10000 * t.val + (y 0).val := ⟨⟨10000 * t.val + (y 0).val, by omega⟩, rfl⟩
  exact (pay_at (iblk m c 1 t) (iblk m c 0 t) (iblk m c 2 t) (iblk m c 3 t) (iblk m c 5 t) (iblk m c 4 t)
      (iblk m c 6 t) (iblk m c 7 t) y).trans
    ((block_score (R := 10000) (iblk m c 0 t) (iblk m c 1 t) (iblk m c 2 t) (iblk m c 3 t) (iblk m c 4 t) (iblk m c 5 t)
      (iblk m c 6 t) (iblk m c 7 t)
      (Cert.ReferenceIdeal.Read.val_main_v13 (F := Ideal) (a0 m c) (a1 m c))
      (Cert.ReferenceIdeal.Read.val_main_v17 (F := Ideal) (a1 m c)) (a0 m c)
      (Cert.ReferenceIdeal.Read.val_main_v23 (F := Ideal) (a2 m c)) (a3 m c)
      (Cert.ReferenceIdeal.Read.val_main_v28 (F := Ideal) (a4 m c))
      (Cert.ReferenceIdeal.Read.val_main_v32 (F := Ideal) (a5 m c)) (a6 m c) (y 0) r
      (fun k => iblk0_apply m c t (y 0) k r hr) (iblk1_apply m c t (y 0) r hr) (fun k => iblk2_apply m c t (y 0) k r hr)
      (iblk3_eq m c t) (fun j => iblk4_apply m c t j) (iblk5_eq m c t) (iblk6_eq m c t) (iblk7_apply m c t)).trans
      (read8 c t (outCol m c) y r hr).symm)
/-- An index of the score column is in point t's block iff its row is in the block's range. -/
theorem mem_blk (t : Fin cfg0.N) (i : S100000x1.Idx) :
    i ∈ ((cfg0.win 8).blk t).view.set ↔ ∀ a : Fin 2, win0_8.index t a * S10000x1.size a ≤ (i a).val ∧ (i a).val < win0_8.index t a * S10000x1.size a + S10000x1.size a := by
  show i ∈ ((View.whole main_v24).slice (win0_8.rect t)).set ↔ _
  rw [View.set_slice_whole, Rect.mem_set_unit]
  exact Iff.rfl

/-- Every row is in the block of the point row / 10000. -/
theorem cover (i : S100000x1.Idx) : ∃ t : Fin cfg0.N, (cfg0.win 8).flush t = true ∧ i ∈ ((cfg0.win 8).blk t).view.set := by
  have hN : cfg0.N = 10 := N_0
  have hi0 : (i 0).val < 100000 := (i 0).isLt
  have hi1 : (i 1).val < 1 := (i 1).isLt
  obtain ⟨t, ht⟩ : ∃ t : Fin cfg0.N, t.val = (i 0).val / 10000 := ⟨⟨(i 0).val / 10000, by rw [hN]; omega⟩, rfl⟩
  obtain ⟨-, -, -, -, -, -, -, -, -, -, -, -, -, -, -, -, e80, e81⟩ := idx_facts t
  refine ⟨t, flush0_8 t, ?_⟩
  rw [mem_blk]
  intro a
  match a with
  | ⟨0, _⟩ =>
    show win0_8.index t (0 : Fin 2) * 10000 ≤ (i 0).val ∧ (i 0).val < win0_8.index t (0 : Fin 2) * 10000 + 10000
    rw [e80, ht]; omega
  | ⟨1, _⟩ =>
    show win0_8.index t (1 : Fin 2) * 1 ≤ (i 1).val ∧ (i 1).val < win0_8.index t (1 : Fin 2) * 1 + 1
    rw [e81]; omega

/-- THE ARRAY after the launch: the score column. -/
theorem final (c : Dev nD) : (dats m 0 c).arrAt 8 cfg0.N = outCol m c :=
  (dats m 0 c).arrAt_eq_of_cover 8 (outCol m c) (fun t _ => flushed_eq m c t) cover

/-- The program's last operation lays the column out as a vector: the result is the score of every node. -/
theorem tail_v25 (c : Dev nD) : Pipeline.afterTail₀ cfgs (dats m) 0 (V0 m) [hostOps1] c main_v25 = result m c := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v24)
      = outCol m c :=
    (Pipeline.withArrays_arr spec0 launch0.win.arr_inj c _ _ 8).trans (final m c)
  funext i
  obtain ⟨r, rfl⟩ : ∃ r : Fin 100000, i = ix1 r := ⟨i 0, eq_ix1 i⟩
  show shapeCast S100000 (Pipeline.withArrays (cfgs 0).spec c (V0 m c) (fun w => (dats m 0 c).arrAt w (cfgs 0).N)
      (Proc.devRef .tc main_v24)) Facts₀.shapeCasts_S100000x1_S100000 (ix1 r) = result m c (ix1 r)
  rw [e]
  exact shapeCast_a1_a_apply _ _ r

/-- THE RUN, READ: every weakly fair execution of the program ends with the result array at every node's score and the
    seven arguments as they were. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (tail_v25 m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.HeadValue
end
-- ==== Proof.RefValue.lean ====
/-
  The reference program's result, node by node, is the head specification's score.

  For a node r the program divides the scattered message sum msg(r, k) by max(deg(r), 1), contracts that mean with
  the first transposed weight matrix, adds the bias bl(j), adds the contraction of the node's own features with the
  second transposed weight matrix, rectifies, contracts the 64 hidden activations with the head's column and adds
  the head's bias. Each stage is read at an index from the stages before it; the index maps the layout operations
  compose (broadcasts along an axis of size one, a reshape dividing by one) are the coordinate pairs (r, k), (k, j),
  (j, 0) and the single coordinates r, j, 0, so the expression that results is the specification's term for term.
  The scattered messages, the degrees and the three transposed weight matrices are passed on as they are.
-/
import proofs.«175616_j46883863003259_1_alg».proof.Proof.Gen.ReferenceIdeal.Read
import proofs.«175616_j46883863003259_1_alg».proof.Proof.HeadSpec

noncomputable section

open scoped BigOperators

namespace Cert.ReferenceIdeal.RefValue
open Cert.ReferenceIdeal Cert.ReferenceIdeal.Read Idealize.ShloMosaic Idealize.ShloMosaic.ValueIdx

/-- The neighbour mean at node r, feature k: the scattered sum over the degree clamped below at one. -/
theorem agg_eq (x0 : (⟨S100000x64, .f32⟩ : BufTy).Contents (Elt Ideal)) (x1 : (⟨S2x1600000, .i32⟩ : BufTy).Contents (Elt Ideal))
    (r : Fin 100000) (k : Fin 64) :
    val_main_v22 (F := Ideal) x0 x1 (ix2 r k)
      = Ideal.div (val_main_v13 (F := Ideal) x0 x1 (ix2 r k))
          (max (val_main_v17 (F := Ideal) x1 (ix1 r)) (Ideal.ofBits .f32 0x3F800000#32)) := by
  rw [val_main_v22_apply, val_main_v21_apply, val_main_v20_apply, val_main_v19_apply, val_main_v18_apply,
    val_main_cst_3_apply]
  have h : idx_main_v20 (idx_main_v21 (ix2 r k)) = ix1 r := funext fun a => match a with | ⟨0, _⟩ => rfl
  rw [h, Ideal.hostDivf_def, Ideal.maximumf_def, Ideal.ofBits_def]

/-- The hidden activation j of node r, read off the program's stages, is the specification's. -/
theorem hidden_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (r : Fin 100000) (j : Fin 64) :
    val_main_v31 (F := Ideal) x0 x1 x2 x3 x4 (ix2 r j)
      = Cert.SageHead.hiddenOf (fun k => val_main_v13 (F := Ideal) x0 x1 (ix2 r k)) (fun k => x0 (ix2 r k))
          (val_main_v17 (F := Ideal) x1 (ix1 r)) (val_main_v23 (F := Ideal) x2) (val_main_v28 (F := Ideal) x4)
          (x3 (ix1 j)) j := by
  rw [val_main_v31_apply, val_main_v30_apply, val_main_v27_apply, val_main_v24_apply, val_main_v29_apply,
    val_main_v26_apply, val_main_v25_apply, val_main_call0_v0_apply, val_main_call0_cst_apply]
  have hl : ∀ k : Fin 64, lidx_main_v24 (ix2 r j) k = ix2 r k := fun k =>
    funext fun a => match a with | ⟨0, _⟩ => rfl | ⟨1, _⟩ => rfl
  have hr : ∀ k : Fin 64, ridx_main_v24 (ix2 r j) k = ix2 k j := fun k =>
    funext fun a => match a with | ⟨0, _⟩ => rfl | ⟨1, _⟩ => rfl
  have hl' : ∀ k : Fin 64, lidx_main_v29 (ix2 r j) k = ix2 r k := fun k =>
    funext fun a => match a with | ⟨0, _⟩ => rfl | ⟨1, _⟩ => rfl
  have hr' : ∀ k : Fin 64, ridx_main_v29 (ix2 r j) k = ix2 k j := fun k =>
    funext fun a => match a with | ⟨0, _⟩ => rfl | ⟨1, _⟩ => rfl
  have hb : idx_main_v25 (idx_main_v26 (ix2 r j)) = ix1 j := funext fun a => match a with | ⟨0, _⟩ => rfl
  rw [hb, Ideal.maximumf_def, Ideal.addf_def, Ideal.addf_def, Ideal.ofBits_def]
  unfold Cert.SageHead.hiddenOf
  simp only [hl, hr, hl', hr', agg_eq]

/-- The reference's result is the specification's score of the aggregated messages, the degrees, the node
    features and the transposed weights: node by node, the head's sum over the hidden activations plus its bias. -/
theorem ref_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S1x64, .f32⟩ : BufTy).Contents (Elt Ideal)) (x6 : (⟨S1, .f32⟩ : BufTy).Contents (Elt Ideal)) :
    val_main_v37 (F := Ideal) x0 x1 x2 x3 x4 x5 x6
      = Cert.SageHead.score (val_main_v13 (F := Ideal) x0 x1) (val_main_v17 (F := Ideal) x1) x0 (val_main_v23 (F := Ideal) x2) x3 (val_main_v28 (F := Ideal) x4) (val_main_v32 (F := Ideal) x5) x6 := by
  funext i
  obtain ⟨r, rfl⟩ : ∃ r : Fin 100000, i = ix1 r := ⟨i 0, eq_ix1 i⟩
  rw [val_main_v37_apply, val_main_v36_apply, val_main_v33_apply, val_main_v35_apply, val_main_v34_apply]
  have hL : ∀ k : Fin 64, lidx_main_v33 (idx_main_v37 (ix1 r)) k = ix2 r k := fun k =>
    funext fun a => Fin.ext (by match a with | ⟨0, _⟩ => exact Nat.div_one _ | ⟨1, _⟩ => rfl)
  have hR : ∀ k : Fin 64, ridx_main_v33 (idx_main_v37 (ix1 r)) k = ix2 k 0 := fun k =>
    funext fun a => match a with | ⟨0, _⟩ => rfl | ⟨1, _⟩ => rfl
  have hB : idx_main_v34 (idx_main_v35 (idx_main_v37 (ix1 r))) = ix1 0 :=
    funext fun a => match a with | ⟨0, _⟩ => rfl
  rw [hB, Ideal.addf_def]
  simp only [hL, hR, hidden_eq]
  rfl

end Cert.ReferenceIdeal.RefValue

end
-- ==== Proof.lean ====
/-
  A graph-convolution layer with a regression head, tiled over the nodes, against the same layer written as whole-array
  operations; both read over the extended reals.

  Both programs first aggregate: they gather the edges' source rows of the node features, add them into the destination
  rows, and count the edges into each destination. These are the same operations on the same arguments, and nothing
  below looks inside them. What follows is, for every node r,
    h(j)   = max((Σ_k (msg(r, k) / max(deg(r), 1)) · Wl(j, k) + bl(j)) + Σ_k x(r, k) · Wr(j, k), 0)
    out(r) = Σ_j h(j) · Wh(0, j) + bh(0).
  The reference computes it with three whole products over all 100000 nodes. The kernel walks ten tiles of 10000 nodes;
  a tile's products into zero accumulators are the same sums over the 64 contracted coordinates, its changes of float
  format are the identity on extended reals, and its degree column and bias rows are the reference's vectors laid out
  with a unit axis. So a tile's row p at point t is the reference's entry at node 10000 t + p: the two results agree
  entry by entry, with the sums, the quotient, the maxima and the additions in the same order on both sides, and no
  law of arithmetic is needed beyond reading each sum at its index. The tiles cover the nodes, the last operation of the
  kernel's program lays the one-column result out as a vector, and the arguments are never written.
-/
import proofs.«175616_j46883863003259_1_alg».proof.Defs
import proofs.«175616_j46883863003259_1_alg».proof.Proof.Gen.Kernel
import proofs.«175616_j46883863003259_1_alg».proof.Proof.Gen.Kernel.Frame
import proofs.«175616_j46883863003259_1_alg».proof.Proof.Gen.KernelIdeal
import proofs.«175616_j46883863003259_1_alg».proof.Proof.Gen.KernelIdeal.Frame
import proofs.«175616_j46883863003259_1_alg».proof.Proof.Gen.ReferenceIdeal
import proofs.«175616_j46883863003259_1_alg».proof.Proof.Gen.ReferenceIdeal.Run
import proofs.«175616_j46883863003259_1_alg».proof.Proof.Gen.ReferenceIdeal.Read
import proofs.«175616_j46883863003259_1_alg».proof.Proof.Gen.Pre_finite_inputs
import proofs.«175616_j46883863003259_1_alg».proof.Proof.KernelValue
import proofs.«175616_j46883863003259_1_alg».proof.Proof.RefValue
import Idealize.ShloMosaic.Adequacy
import Idealize.ShloMosaic.Init

noncomputable section

namespace Cert.Proof

open Idealize.ShloMosaic Idealize.SL.Sem

/-- The kernel's program as printed runs to the end and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of whole-array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with every node's score: the kernel's tiles cover the nodes and each tile row is the node's score;
    the reference's stages composed are the same score; the arguments agree. -/
theorem algebraic : Cert.algebraic_KernelIdeal_ReferenceIdeal := by
  intro m ρ m' ρ' _ hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v37_eq, Cert.ReferenceIdeal.RefValue.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
